-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S256x512 : Shape := ⟨2, ![256, 512]⟩
abbrev S1x256 : Shape := ⟨2, ![1, 256]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x256 .f32) (main_arg5 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x512 .f32) (main_arg1 : FVec F S256x512 .f32) (main_arg2 : FVec F S256x512 .f32) (main_arg3 : FVec F S256x512 .f32) (main_arg4 : FVec F S1x256 .f32) (main_arg5 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_v13 main_v16
-- ==== Kernel.lean ====
abbrev S8192x512 : Shape := ⟨2, ![8192, 512]⟩
abbrev S256x512 : Shape := ⟨2, ![256, 512]⟩
abbrev S1x256 : Shape := ⟨2, ![1, 256]⟩
abbrev S1 : Shape := ⟨1, ![1]⟩
abbrev S8192x256 : Shape := ⟨2, ![8192, 256]⟩
abbrev S256x256 : Shape := ⟨2, ![256, 256]⟩
abbrev S1024x512 : Shape := ⟨2, ![1024, 512]⟩
abbrev S1024x256 : Shape := ⟨2, ![1024, 256]⟩
abbrev S512x256 : Shape := ⟨2, ![512, 256]⟩
abbrev S256x1024 : Shape := ⟨2, ![256, 1024]⟩
abbrev S2048x256 : Shape := ⟨2, ![2048, 256]⟩
abbrev S256x1 : Shape := ⟨2, ![256, 1]⟩
abbrev S8192x1 : Shape := ⟨2, ![8192, 1]⟩
abbrev S1x1 : Shape := ⟨2, ![1, 1]⟩
abbrev S8192 : Shape := ⟨1, ![8192]⟩

abbrev nBuf : Space → Nat
  | .hbm => 15
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S1x256, .f32⟩
  | .hbm, ⟨5, _⟩ => ⟨S1, .f32⟩
  | .hbm, ⟨6, _⟩ => ⟨S8192x256, .f32⟩
  | .hbm, ⟨7, _⟩ => ⟨S256x256, .f32⟩
  | .hbm, ⟨8, _⟩ => ⟨S8192x256, .f32⟩
  | .hbm, ⟨9, _⟩ => ⟨S256x1, .f32⟩
  | .hbm, ⟨10, _⟩ => ⟨S8192x1, .f32⟩
  | .hbm, ⟨11, _⟩ => ⟨S1x1, .f32⟩
  | .hbm, ⟨12, _⟩ => ⟨S8192x1, .f32⟩
  | .hbm, ⟨13, _⟩ => ⟨S8192x1, .f32⟩
  | .hbm, ⟨14, _⟩ => ⟨S8192, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S2048x256, .f32⟩
  | .local _ .vmem, ⟨9, _⟩ => ⟨S2048x256, .f32⟩
  | .local _ .vmem, ⟨10, _⟩ => ⟨S256x256, .f32⟩
  | .local _ .vmem, ⟨11, _⟩ => ⟨S2048x256, .f32⟩
  | .local _ .vmem, ⟨12, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x256_S256x256_0_0 : ∀ a, (![0, 0] : Fin 2 → Nat) a + S256x256.size a ≤ S256x256.size a
  h_S256x256 : 0 < S256x256.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1024x256_S1024x256_0_0 : ∀ a, (![0, 0] : Fin 2 → Nat) a + S1024x256.size a ≤ S1024x256.size a
  h_S1024x256 : 0 < S1024x256.numel
  shapeCasts_S256x256_S256x256 : S256x256.ShapeCasts S256x256
  transposes_S1024x256_p1_0_S256x1024 : S1024x256.Transposes [1, 0] S256x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S1x256_S256x1_1_0 : S1x256.Transposes [1, 0] S256x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S1024x512_S512x256_S1024x256_1_0_0_1_n_n_wf : DotDims.WF S1024x512 S512x256 S1024x256 [1] [0] [0] [1] [] []
  dot_S256x1024_S1024x256_S256x256_1_0_0_1_n_n_wf : DotDims.WF S256x1024 S1024x256 S256x256 [1] [0] [0] [1] [] []
  dot_S2048x256_S256x256_S2048x256_1_0_0_1_n_n_wf : DotDims.WF S2048x256 S256x256 S2048x256 [1] [0] [0] [1] [] []
  dot_S8192x256_S256x1_S8192x1_1_0_0_1_n_n_wf : DotDims.WF S8192x256 S256x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S256x512 : Shape := ⟨2, ![256, 512]⟩
abbrev S1x256 : Shape := ⟨2, ![1, 256]⟩
abbrev S1 : Shape := ⟨1, ![1]⟩
abbrev S512x256 : Shape := ⟨2, ![512, 256]⟩
abbrev S8192x256 : Shape := ⟨2, ![8192, 256]⟩
abbrev S256x8192 : Shape := ⟨2, ![256, 8192]⟩
abbrev S8192x8192 : Shape := ⟨2, ![8192, 8192]⟩
abbrev S256x1 : Shape := ⟨2, ![256, 1]⟩
abbrev S8192x1 : Shape := ⟨2, ![8192, 1]⟩
abbrev S1x1 : Shape := ⟨2, ![1, 1]⟩
abbrev S8192 : Shape := ⟨1, ![8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S1x256, .f32⟩
  | .hbm, ⟨5, _⟩ => ⟨S1, .f32⟩
  | .hbm, ⟨6, _⟩ => ⟨S512x256, .f32⟩
  | .hbm, ⟨7, _⟩ => ⟨S8192x256, .f32⟩
  | .hbm, ⟨8, _⟩ => ⟨S512x256, .f32⟩
  | .hbm, ⟨9, _⟩ => ⟨S8192x256, .f32⟩
  | .hbm, ⟨10, _⟩ => ⟨S512x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S8192x256, .f32⟩
  | .hbm, ⟨15, _⟩ => ⟨S256x1, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S256x512_S512x256_1_0 : S256x512.Transposes [1, 0] S512x256
  transposes_S8192x256_S256x8192_1_0 : S8192x256.Transposes [1, 0] S256x8192
  transposes_S1x256_S256x1_1_0 : S1x256.Transposes [1, 0] S256x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x1_S8192x1_1_0_0_1_n_n_wf : DotDims.WF S8192x256 S256x1 S8192x1 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.LinearAttention.lean ====
/-
  Unnormalised linear attention over the extended reals, in the two arrangements the certificate compares.

  With the projections `Q = X·W_Qᵀ`, `K = X·W_Kᵀ`, `V = X·W_Vᵀ` (each an 8192 × 256 matrix, `proj`), one side forms the
  8192 × 8192 score matrix first, `Z[i,e] = ∑ⱼ (∑_d Q[i,d]·K[j,d]) · V[j,e]` (`attn`); the other forms the 256 × 256
  matrix `KᵀV` first — accumulated over eight tiles of 1024 rows, from zero, one tile after the other (`kvTile`,
  `kvUpTo`) — and then `Z[i,e] = ∑_d Q[i,d] · (KᵀV)[d,e]` (`qkv`). The two agree by associativity and distributivity
  of real matrix products: reorder the finite double sum over `(j, d)`. On the extended reals those laws fail at the
  infinities, so the law is proved for REAL entries and transported through the coercion (`qkv_eq_attn`): a finite
  sum of products of reals is a real, hence so is every projection (`proj_coe`).
-/
import Idealize.ShloMosaic.PureOps.Ideal
import Idealize.ShloMosaic.Lib.ValueIdx

noncomputable section

open scoped BigOperators

namespace Cert.Proof.LinearAttention

open Idealize.ShloMosaic Idealize.ShloMosaic.ValueIdx

/-- The shapes: the tokens `X` (8192 × 512), a weight matrix (256 × 512), a projection (8192 × 256), `KᵀV` (256 × 256). -/
abbrev SX : Shape := ⟨2, ![8192, 512]⟩
abbrev SW : Shape := ⟨2, ![256, 512]⟩
abbrev SP : Shape := ⟨2, ![8192, 256]⟩
abbrev SS : Shape := ⟨2, ![256, 256]⟩

/-! ## The two arrangements -/

/-- A projection `X·Wᵀ`: entry `(i, d)` is the inner product of row `i` of `X` with row `d` of `W`. -/
def proj (X : SX.Idx → EReal) (W : SW.Idx → EReal) : SP.Idx → EReal :=
  fun i => ∑ k : Fin 512, X (ix2 (i 0) k) * W (ix2 (i 1) k)

/-- Row `r` of tile `t`, as a row of the whole: `1024·t + r`. -/
def tileRow (t : Fin 8) (r : Fin 1024) : Fin 8192 :=
  ⟨1024 * t.val + r.val, by have := t.isLt; have := r.isLt; omega⟩

/-- One tile's share of `KᵀV`: the sum over the tile's 1024 rows. -/
def kvTile (K V : SP.Idx → EReal) (t : Fin 8) : SS.Idx → EReal :=
  fun j => ∑ r : Fin 1024, K (ix2 (tileRow t r) (j 0)) * V (ix2 (tileRow t r) (j 1))

/-- `KᵀV` accumulated tile after tile: zero plus tile 0, then each further tile added to what is there. -/
def kvUpTo (K V : SP.Idx → EReal) : (n : ℕ) → n < 8 → SS.Idx → EReal
  | 0, h => fun j => 0 + kvTile K V ⟨0, h⟩ j
  | n + 1, h => fun j => kvUpTo K V n (Nat.lt_of_succ_lt h) j + kvTile K V ⟨n + 1, h⟩ j

/-- `Q·(KᵀV)`, for any 256 × 256 right factor. -/
def qkv (Q : SP.Idx → EReal) (S : SS.Idx → EReal) : SP.Idx → EReal :=
  fun i => ∑ d : Fin 256, Q (ix2 (i 0) d) * S (ix2 d (i 1))

/-- `(Q·Kᵀ)·V`: the scores first. -/
def attn (Q K V : SP.Idx → EReal) : SP.Idx → EReal :=
  fun i => ∑ j : Fin 8192, (∑ d : Fin 256, Q (ix2 (i 0) d) * K (ix2 j d)) * V (ix2 j (i 1))

/-! ## Sums of coerced reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of matrices with real entries has real entries. -/
theorem proj_coe (x : SX.Idx → ℝ) (w : SW.Idx → ℝ) :
    proj (fun i => (x i : EReal)) (fun i => (w i : EReal))
      = fun i => ((∑ k : Fin 512, x (ix2 (i 0) k) * w (ix2 (i 1) k) : ℝ) : EReal) := by
  funext i
  unfold proj
  rw [coe_sum]
  exact Finset.sum_congr rfl fun k _ => (EReal.coe_mul _ _).symm

/-! ## The rows as eight tiles -/

/-- A row of the whole is a tile and a row inside it. -/
def tileEquiv : Fin 8 × Fin 1024 ≃ Fin 8192 where
  toFun p := tileRow p.1 p.2
  invFun j := (⟨j.val / 1024, by have := j.isLt; omega⟩, ⟨j.val % 1024, Nat.mod_lt _ (by norm_num)⟩)
  left_inv p := by
    obtain ⟨t, r⟩ := p
    have ht := t.isLt
    have hr := r.isLt
    refine Prod.ext (Fin.ext ?_) (Fin.ext ?_)
    · show (1024 * t.val + r.val) / 1024 = t.val
      omega
    · show (1024 * t.val + r.val) % 1024 = r.val
      omega
  right_inv j := by
    apply Fin.ext
    show 1024 * (j.val / 1024) + j.val % 1024 = j.val
    omega

/-- So a sum over the rows is the sum over the tiles of the sums over each tile's rows. -/
theorem sum_rows {M : Type} [AddCommMonoid M] (f : Fin 8192 → M) :
    ∑ j, f j = ∑ t : Fin 8, ∑ r : Fin 1024, f (tileRow t r) := by
  rw [← Equiv.sum_comp tileEquiv f, Fintype.sum_prod_type]
  rfl

/-! ## The accumulation over real entries -/

/-- One tile's share over the reals. -/
def kvTileR (k v : SP.Idx → ℝ) (t : Fin 8) (j : SS.Idx) : ℝ :=
  ∑ r : Fin 1024, k (ix2 (tileRow t r) (j 0)) * v (ix2 (tileRow t r) (j 1))

theorem kvTile_coe (k v : SP.Idx → ℝ) (t : Fin 8) (j : SS.Idx) :
    kvTile (fun i => (k i : EReal)) (fun i => (v i : EReal)) t j = ((kvTileR k v t j : ℝ) : EReal) := by
  unfold kvTile kvTileR
  rw [coe_sum]
  exact Finset.sum_congr rfl fun r _ => (EReal.coe_mul _ _).symm

/-- The accumulation over the reals. -/
def kvUpToR (k v : SP.Idx → ℝ) : (n : ℕ) → n < 8 → SS.Idx → ℝ
  | 0, h => fun j => 0 + kvTileR k v ⟨0, h⟩ j
  | n + 1, h => fun j => kvUpToR k v n (Nat.lt_of_succ_lt h) j + kvTileR k v ⟨n + 1, h⟩ j

theorem kvUpTo_coe (k v : SP.Idx → ℝ) : ∀ (n : ℕ) (h : n < 8) (j : SS.Idx),
    kvUpTo (fun i => (k i : EReal)) (fun i => (v i : EReal)) n h j = ((kvUpToR k v n h j : ℝ) : EReal)
  | 0, h, j => by
    show (0 : EReal) + kvTile _ _ ⟨0, h⟩ j = ((0 + kvTileR k v ⟨0, h⟩ j : ℝ) : EReal)
    rw [kvTile_coe, EReal.coe_add, EReal.coe_zero]
  | n + 1, h, j => by
    show kvUpTo _ _ n _ j + kvTile _ _ ⟨n + 1, h⟩ j = ((kvUpToR k v n _ j + kvTileR k v ⟨n + 1, h⟩ j : ℝ) : EReal)
    rw [kvUpTo_coe k v n _ j, kvTile_coe, EReal.coe_add]

/-- After the last tile the accumulation is the sum of all eight shares. -/
theorem kvUpToR_last (k v : SP.Idx → ℝ) (h : 7 < 8) (j : SS.Idx) :
    kvUpToR k v 7 h j = ∑ t : Fin 8, kvTileR k v t j := by
  have e : ∑ t : Fin 8, kvTileR k v t j
      = kvTileR k v ⟨0, by norm_num⟩ j + kvTileR k v ⟨1, by norm_num⟩ j + kvTileR k v ⟨2, by norm_num⟩ j
        + kvTileR k v ⟨3, by norm_num⟩ j + kvTileR k v ⟨4, by norm_num⟩ j + kvTileR k v ⟨5, by norm_num⟩ j
        + kvTileR k v ⟨6, by norm_num⟩ j + kvTileR k v ⟨7, by norm_num⟩ j :=
    Fin.sum_univ_eight fun t => kvTileR k v t j
  rw [e]
  show 0 + kvTileR k v ⟨0, _⟩ j + kvTileR k v ⟨1, _⟩ j + kvTileR k v ⟨2, _⟩ j + kvTileR k v ⟨3, _⟩ j
    + kvTileR k v ⟨4, _⟩ j + kvTileR k v ⟨5, _⟩ j + kvTileR k v ⟨6, _⟩ j + kvTileR k v ⟨7, _⟩ j = _
  rw [zero_add]

/-! ## The law -/

/-- Over the reals: `∑_d q_d · ∑ⱼ k_{j,d}·v_j = ∑ⱼ (∑_d q_d·k_{j,d}) · v_j`, the rows `j` taken tile by tile on the left. -/
theorem assoc_real (q : Fin 256 → ℝ) (k : Fin 8192 → Fin 256 → ℝ) (v : Fin 8192 → ℝ) :
    ∑ d : Fin 256, q d * ∑ t : Fin 8, ∑ r : Fin 1024, k (tileRow t r) d * v (tileRow t r)
      = ∑ j : Fin 8192, (∑ d : Fin 256, q d * k j d) * v j := by
  have hl : ∀ d : Fin 256, ∑ t : Fin 8, ∑ r : Fin 1024, k (tileRow t r) d * v (tileRow t r) = ∑ j : Fin 8192, k j d * v j :=
    fun d => (sum_rows fun j => k j d * v j).symm
  simp only [hl, Finset.mul_sum, Finset.sum_mul]
  rw [Finset.sum_comm]
  exact Finset.sum_congr rfl fun j _ => Finset.sum_congr rfl fun d _ => (mul_assoc _ _ _).symm

/-- THE LAW. For projections with real entries, `Q·(KᵀV)` with `KᵀV` accumulated over the eight tiles from zero is
    `(Q·Kᵀ)·V`. -/
theorem qkv_eq_attn (q k v : SP.Idx → ℝ) (h : 7 < 8) :
    qkv (fun i => (q i : EReal)) (kvUpTo (fun i => (k i : EReal)) (fun i => (v i : EReal)) 7 h)
      = attn (fun i => (q i : EReal)) (fun i => (k i : EReal)) (fun i => (v i : EReal)) := by
  funext i
  unfold qkv attn
  have hL : ∀ d : Fin 256, (q (ix2 (i 0) d) : EReal) * kvUpTo (fun i => (k i : EReal)) (fun i => (v i : EReal)) 7 h (ix2 d (i 1))
      = ((q (ix2 (i 0) d) * ∑ t : Fin 8, ∑ r : Fin 1024, k (ix2 (tileRow t r) d) * v (ix2 (tileRow t r) (i 1)) : ℝ) : EReal) := by
    intro d
    rw [kvUpTo_coe, kvUpToR_last, ← EReal.coe_mul]
    rfl
  have hR : ∀ j : Fin 8192, (∑ d : Fin 256, (q (ix2 (i 0) d) : EReal) * (k (ix2 j d) : EReal)) * (v (ix2 j (i 1)) : EReal)
      = (((∑ d : Fin 256, q (ix2 (i 0) d) * k (ix2 j d)) * v (ix2 j (i 1)) : ℝ) : EReal) := by
    intro j
    rw [EReal.coe_mul, coe_sum]
    exact congrArg (· * (v (ix2 j (i 1)) : EReal)) (Finset.sum_congr rfl fun d _ => (EReal.coe_mul _ _))
  rw [Finset.sum_congr rfl fun d _ => hL d, Finset.sum_congr rfl fun j _ => hR j, ← coe_sum, ← coe_sum]
  exact congrArg _ (assoc_real (fun d => q (ix2 (i 0) d)) (fun j d => k (ix2 j d)) (fun j => v (ix2 j (i 1))))

end Cert.Proof.LinearAttention

end
-- ==== Proof.FiniteEntries.lean ====
import proofs.«133003_j17051020165649_1_alg».proof.Pre_finite_inputs
import Idealize.ShloMosaic.Lib.ReduceAll
import Idealize.ShloMosaic.Lib.ValueIdx
import Idealize.ShloMosaic.PureOps.Ideal
import Mathlib.Data.EReal.Basic

/-!
  Finiteness of the inputs. The precondition is the conjunction, over the six float inputs, of
  "every element has absolute value strictly below plus infinity". On the extended reals the absolute value of an
  element is `max a (-a)`, which is `⊤` at both `⊤` and `⊥`; so an element that passes the test is neither, and is
  therefore the coercion of a real number. The four matrices the attention reads are the first four inputs.
-/

noncomputable section

namespace Cert.Proof.FiniteEntries

open Idealize.ShloMosaic Idealize.ShloMosaic.ValueIdx
open Cert.Pre_finite_inputs

/-- The scalar shape has exactly one index. -/
instance subsingleton_scalar_idx : Subsingleton S_.Idx := ⟨fun a b => funext fun d => d.elim0⟩

/-- The f32 pattern of plus infinity is the top extended real. -/
theorem ofBits_pos_inf : Ideal.ofBits .f32 0x7F800000#32 = (⊤ : EReal) := by simp [Ideal.ofBits, Ideal.ieee]

/-- An extended real whose absolute value `max a (-a)` is strictly below `⊤` is the coercion of a real:
    at `⊤` the maximum is `⊤`, and at `⊥` it is `-⊥ = ⊤`. -/
theorem real_of_abs_lt_top (a : EReal) (h : max a (-a) < ⊤) : ∃ r : ℝ, a = ((r : ℝ) : EReal) := by
  induction a using EReal.rec with
  | bot => simp at h
  | coe r => exact ⟨r, rfl⟩
  | top => simp at h

/-- One input's test read back: if the conjunction over all indices of "`|x i| < +∞`" holds, then every element of
    `x` is real, and so `x` is the coercion of a real-valued array (its elementwise `toReal`). -/
theorem real_of_all_abs_lt {S : Shape} {axes : List (Fin S.rank)} (hb : S_.BroadcastsInDim S (![] : Fin 0 → Fin S.rank))
    (hr : S.ReducesTo axes S_) (hu : 0 < S_.numel) (x : FVec Ideal S .f32)
    (e : Host.reduce IntOp.andi
          (cmpf .olt (Host.absf x) (broadcastInDim S ![] hb (constant (F := Ideal) S_ .f32 0x7F800000#32)))
          (constantI S_ 1 1#1) hr hu ix0 = 1#1) :
    ∃ r : S.Idx → ℝ, x = fun i => ((r i : ℝ) : EReal) := by
  have hx : ∀ i : S.Idx, ∃ r : ℝ, x i = ((r : ℝ) : EReal) := by
    intro i
    have hi := Host.reduce_andi_all _ _ hr hu ix0 e i
    have hlt : max (x i) (-(x i)) < (⊤ : EReal) := by
      have h2 : Ideal.cmp .olt (max (x i) (-(x i))) (Ideal.ofBits .f32 0x7F800000#32) = 1#1 := hi
      rw [ofBits_pos_inf] at h2
      by_contra hn
      simp [Ideal.cmp, hn] at h2
    exact real_of_abs_lt_top _ hlt
  choose r hr' using hx
  exact ⟨r, funext hr'⟩

/-- Under the precondition that every float input is finite, each of the four matrices the attention reads (the
    query-side input and the three 256×512 inputs) has only real entries: it is the coercion of a real-valued array. -/
theorem real_entries [Cert.Pre_finite_inputs.Facts]
    (x0 : FVec Ideal Cert.Pre_finite_inputs.S8192x512 .f32) (x1 x2 x3 : FVec Ideal Cert.Pre_finite_inputs.S256x512 .f32)
    (x4 : FVec Ideal Cert.Pre_finite_inputs.S1x256 .f32) (x5 : FVec Ideal Cert.Pre_finite_inputs.S1 .f32)
    (h : Cert.Pre_finite_inputs.fn (F := Ideal) x0 x1 x2 x3 x4 x5 = fun _ => 1#1) :
    (∃ r : Cert.Pre_finite_inputs.S8192x512.Idx → ℝ, x0 = fun i => ((r i : ℝ) : EReal))
    ∧ (∃ r : Cert.Pre_finite_inputs.S256x512.Idx → ℝ, x1 = fun i => ((r i : ℝ) : EReal))
    ∧ (∃ r : Cert.Pre_finite_inputs.S256x512.Idx → ℝ, x2 = fun i => ((r i : ℝ) : EReal))
    ∧ (∃ r : Cert.Pre_finite_inputs.S256x512.Idx → ℝ, x3 = fun i => ((r i : ℝ) : EReal)) := by
  have h0 := congrFun h ix0
  dsimp only [Cert.Pre_finite_inputs.fn, Cert.Pre_finite_inputs.fn_part1] at h0
  -- the outer conjunction is ((((t0 ∧ t1) ∧ t2) ∧ t3) ∧ t4) ∧ t5, read at the one scalar index
  obtain ⟨h01234, _⟩ := IntOp.andi_eq_one.1 h0
  obtain ⟨h0123, _⟩ := IntOp.andi_eq_one.1 h01234
  obtain ⟨h012, t3⟩ := IntOp.andi_eq_one.1 h0123
  obtain ⟨h01, t2⟩ := IntOp.andi_eq_one.1 h012
  obtain ⟨t0, t1⟩ := IntOp.andi_eq_one.1 h01
  exact ⟨real_of_all_abs_lt _ _ _ x0 t0, real_of_all_abs_lt _ _ _ x1 t1,
         real_of_all_abs_lt _ _ _ x2 t2, real_of_all_abs_lt _ _ _ x3 t3⟩

end Cert.Proof.FiniteEntries

end
-- ==== Proof.RefAttention.lean ====
/-
  The reference program's attention stage, read as a formula.

  The reference forms the three projections `Q = X·W_Qᵀ`, `K = X·W_Kᵀ`, `V = X·W_Vᵀ` (each by transposing the weight
  and contracting over the 512 features), transposes `K`, forms the 8192 × 8192 scores `Q·Kᵀ` by contracting over the
  256 channels, and contracts the scores with `V` over the 8192 rows. Read index by index, each of these stages is a
  finite sum of products, and each transposition only swaps the two coordinates of the index it is read at; so the
  stage before the head projection is `Z[i,e] = ∑ⱼ (∑_d Q[i,d]·K[j,d]) · V[j,e]`, the scores-first arrangement
  `attn` of the three projections `proj`.
-/
import proofs.«133003_j17051020165649_1_alg».proof.Proof.Gen.ReferenceIdeal.Read
import proofs.«133003_j17051020165649_1_alg».proof.Proof.LinearAttention

noncomputable section

open scoped BigOperators

namespace Cert.Proof.RefAttention

open Cert.Proof.LinearAttention
open Idealize.ShloMosaic Idealize.ShloMosaic.ValueIdx
open Cert.ReferenceIdeal Cert.ReferenceIdeal.Read

/-- Two rank-2 indices with the same two coordinates are the same index. -/
theorem idx2_ext {n0 n1 : Nat} (f g : (⟨2, ![n0, n1]⟩ : Shape).Idx) (h0 : f 0 = g 0) (h1 : f 1 = g 1) : f = g := by
  funext a
  match a with
  | ⟨0, _⟩ => exact h0
  | ⟨1, _⟩ => exact h1

/-! ## The three projections -/

/-- Stage 1 is `X·W_Qᵀ`: entry `(i, d)` is `∑ₖ X[i,k]·W[d,k]`, the transposed weight read back at `(d, k)`. -/
theorem v1_eq (X : (⟨S8192x512, .f32⟩ : BufTy).Contents (Elt Ideal)) (W : (⟨S256x512, .f32⟩ : BufTy).Contents (Elt Ideal)) :
    val_main_v1 (F := Ideal) X W = proj X W := by
  funext i
  rw [val_main_v1_apply]
  unfold proj
  refine Finset.sum_congr rfl fun k _ => ?_
  rw [val_main_v0_apply]
  have e1 : lidx_main_v1 i k = ix2 (i 0) k := idx2_ext _ _ rfl rfl
  have e2 : idx_main_v0 (ridx_main_v1 i k) = ix2 (i 1) k := idx2_ext _ _ rfl rfl
  rw [e1, e2]
  rfl

/-- Stage 3 is `X·W_Kᵀ`. -/
theorem v3_eq (X : (⟨S8192x512, .f32⟩ : BufTy).Contents (Elt Ideal)) (W : (⟨S256x512, .f32⟩ : BufTy).Contents (Elt Ideal)) :
    val_main_v3 (F := Ideal) X W = proj X W := by
  funext i
  rw [val_main_v3_apply]
  unfold proj
  refine Finset.sum_congr rfl fun k _ => ?_
  rw [val_main_v2_apply]
  have e1 : lidx_main_v3 i k = ix2 (i 0) k := idx2_ext _ _ rfl rfl
  have e2 : idx_main_v2 (ridx_main_v3 i k) = ix2 (i 1) k := idx2_ext _ _ rfl rfl
  rw [e1, e2]
  rfl

/-- Stage 5 is `X·W_Vᵀ`. -/
theorem v5_eq (X : (⟨S8192x512, .f32⟩ : BufTy).Contents (Elt Ideal)) (W : (⟨S256x512, .f32⟩ : BufTy).Contents (Elt Ideal)) :
    val_main_v5 (F := Ideal) X W = proj X W := by
  funext i
  rw [val_main_v5_apply]
  unfold proj
  refine Finset.sum_congr rfl fun k _ => ?_
  rw [val_main_v4_apply]
  have e1 : lidx_main_v5 i k = ix2 (i 0) k := idx2_ext _ _ rfl rfl
  have e2 : idx_main_v4 (ridx_main_v5 i k) = ix2 (i 1) k := idx2_ext _ _ rfl rfl
  rw [e1, e2]
  rfl

/-! ## The scores -/

/-- Stage 7 is `Q·Kᵀ`: entry `(i, j)` is `∑_d Q[i,d]·K[j,d]`, the transposed `K` read back at `(j, d)`. -/
theorem v7_apply (X : (⟨S8192x512, .f32⟩ : BufTy).Contents (Elt Ideal)) (Wq Wk : (⟨S256x512, .f32⟩ : BufTy).Contents (Elt Ideal))
    (i : S8192x8192.Idx) :
    val_main_v7 (F := Ideal) X Wq Wk i = ∑ d : Fin 256, proj X Wq (ix2 (i 0) d) * proj X Wk (ix2 (i 1) d) := by
  rw [val_main_v7_apply]
  refine Finset.sum_congr rfl fun d _ => ?_
  rw [val_main_v6_apply, v1_eq, v3_eq]
  have e1 : lidx_main_v7 i d = ix2 (i 0) d := idx2_ext _ _ rfl rfl
  have e2 : idx_main_v6 (ridx_main_v7 i d) = ix2 (i 1) d := idx2_ext _ _ rfl rfl
  rw [e1, e2]
  rfl

/-! ## The attention stage -/

/-- The reference's stage before the head projection is the scores-first attention of the three projections:
    `Z[i,e] = ∑ⱼ (∑_d Q[i,d]·K[j,d]) · V[j,e]` with `Q = X·W_Qᵀ`, `K = X·W_Kᵀ`, `V = X·W_Vᵀ`. -/
theorem ref_attn (X : (⟨Cert.ReferenceIdeal.S8192x512, .f32⟩ : BufTy).Contents (Elt Ideal))
    (Wq Wk Wv : (⟨Cert.ReferenceIdeal.S256x512, .f32⟩ : BufTy).Contents (Elt Ideal)) :
    Cert.ReferenceIdeal.Read.val_main_v8 (F := Ideal) X Wq Wk Wv = attn (proj X Wq) (proj X Wk) (proj X Wv) := by
  funext i
  rw [val_main_v8_apply]
  unfold attn
  refine Finset.sum_congr rfl fun j _ => ?_
  rw [v7_apply, v5_eq]
  have e : ridx_main_v8 i j = ix2 j (i 1) := idx2_ext _ _ rfl rfl
  rw [e]
  rfl

end Cert.Proof.RefAttention

end
-- ==== Proof.KernelProducts.lean ====
/-
  The kernel's matrix products read at an index, at the ideal values.

  Each `tpu.matmul` of the two kernel bodies accumulates into a zero splat, so at an output index `(a, b)` it is the
  plain sum over the contraction coordinate `k` of `lhs[a,k] · rhs[k,b]` (the dimension numbers contract the left
  operand's axis 1 with the right operand's axis 0); a change of float format is the identity, and a transposed operand
  reads the untransposed one at the swapped index. So the projection a body takes of a row block `x` with a weight
  matrix `w`, `x·wᵀ`, is at `(r, d)` the inner product of row `r` of `x` with row `d` of `w` (`projBlock_apply`); the
  first body's second store adds to what the accumulator held the product `kᵀ·v` of two such projections, a sum over
  the block's 1024 rows (`pay4_apply`); the second body's store is `q·s` (`pay1B_apply`).
-/
import proofs.«133003_j17051020165649_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Proof.KernelProducts

open Cert.KernelIdeal Cert.KernelIdeal.Gen Idealize.ShloMosaic Idealize.ShloMosaic.ValueIdx

/-! ## A row block (1024 × 512) times a transposed weight (512 × 256) -/

theorem lhs_xw_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_xw_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_xw_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_xw_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product into a zero accumulator at `i`: `∑ₖ l[i₀,k] · r[k,i₁]`, `k` over the 512 contracted coordinates. -/
theorem mm_xw_apply (l : FVec Ideal S1024x512 .bf16) (r : FVec Ideal S512x256 .bf16) (i : S1024x256.Idx) :
    matmul dot_S1024x512_S512x256_S1024x256_1_0_0_1_n_n none l r (constant S1024x256 .f32 0x00000000#32) i
      = ∑ k : Fin 512, l (ix2 (i 0) k) * r (ix2 k (i 1)) := by
  simp only [matmul]
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx i ((ValueIdx.contrEquiv1 dot_S1024x512_S512x256_S1024x256_1_0_0_1_n_n 512 rfl rfl).symm k) = ix2 (i 0) k := funext fun a => Fin.ext (by
    match a with
    | ⟨0, _⟩ => exact lhs_xw_0 _ _
    | ⟨1, _⟩ => exact (lhs_xw_1 _ _).trans hk)
  have er : dot_S1024x512_S512x256_S1024x256_1_0_0_1_n_n.rhsIdx i ((ValueIdx.contrEquiv1 dot_S1024x512_S512x256_S1024x256_1_0_0_1_n_n 512 rfl rfl).symm k) = ix2 k (i 1) := funext fun a => Fin.ext (by
    match a with
    | ⟨0, _⟩ => exact (rhs_xw_0 _ _).trans hk
    | ⟨1, _⟩ => exact rhs_xw_1 _ _)
  rw [el, er]
  rfl

/-- A body's projection of its row block `x` with a weight matrix `w` (both narrowed to bf16, the weight transposed):
    at `(r, d)` the inner product of row `r` of `x` with row `d` of `w`. -/
theorem projBlock_apply (x : Vec Ideal S1024x512 .f32) (w : Vec Ideal S256x512 .f32) (r : Fin 1024) (d : Fin 256) :
    matmul (F := Ideal) dot_S1024x512_S512x256_S1024x256_1_0_0_1_n_n none (truncf (F := Ideal) .bf16 x bitsLt_bf16_f32)
        (transpose S512x256 [1, 0] (truncf (F := Ideal) .bf16 w bitsLt_bf16_f32) transposes_S256x512_p1_0_S512x256)
        (constant (F := Ideal) S1024x256 .f32 0x00000000#32) (ix2 r d)
      = ∑ k : Fin 512, x (ix2 r k) * w (ix2 d k) := by
  refine (mm_xw_apply _ _ (ix2 r d)).trans (Finset.sum_congr rfl fun k _ => ?_)
  exact congrArg (x (ix2 r k) * ·)
    (transpose_apply [1, 0] (truncf (F := Ideal) .bf16 w bitsLt_bf16_f32) transposes_S256x512_p1_0_S512x256 (ix2 k d) (ix2 d k)
      (fun b => match b with
        | ⟨0, _⟩ => rfl
        | ⟨1, _⟩ => rfl))

/-- The first body's first store: the projection of the row block with the first weight. -/
theorem pay3_apply (x : Vec Ideal S1024x512 .f32) (w : Vec Ideal S256x512 .f32) (r : Fin 1024) (d : Fin 256) :
    k0_pay3 (F := Ideal) x w (ix2 r d) = ∑ k : Fin 512, x (ix2 r k) * w (ix2 d k) :=
  projBlock_apply x w r d

/-! ## A transposed projection (256 × 1024) times a projection (1024 × 256) -/

theorem lhs_kv_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem lhs_kv_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem rhs_kv_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem rhs_kv_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- The product into a zero accumulator at `i`: `∑ᵣ l[i₀,r] · r[r,i₁]`, `r` over the 1024 contracted coordinates. -/
theorem mm_kv_apply (l : FVec Ideal S256x1024 .bf16) (r : FVec Ideal S1024x256 .bf16) (i : S256x256.Idx) :
    matmul dot_S256x1024_S1024x256_S256x256_1_0_0_1_n_n none l r (constant S256x256 .f32 0x00000000#32) i
      = ∑ k : Fin 1024, l (ix2 (i 0) k) * r (ix2 k (i 1)) := by
  simp only [matmul]
  rw [Ideal.matmul_constant_zero_apply, ← Equiv.sum_comp (ValueIdx.contrEquiv1 dot_S256x1024_S1024x256_S256x256_1_0_0_1_n_n 1024 rfl rfl).symm]
  refine Finset.sum_congr rfl fun k _ => ?_
  have hk := ValueIdx.contrEquiv1_symm_val dot_S256x1024_S1024x256_S256x256_1_0_0_1_n_n 1024 rfl rfl k
  have el : dot_S256x1024_S1024x256_S256x256_1_0_0_1_n_n.lhsIdx i ((ValueIdx.contrEquiv1 dot_S256x1024_S1024x256_S256x256_1_0_0_1_n_n 1024 rfl rfl).symm k) = ix2 (i 0) k := funext fun a => Fin.ext (by
    match a with
    | ⟨0, _⟩ => exact lhs_kv_0 _ _
    | ⟨1, _⟩ => exact (lhs_kv_1 _ _).trans hk)
  have er : dot_S256x1024_S1024x256_S256x256_1_0_0_1_n_n.rhsIdx i ((ValueIdx.contrEquiv1 dot_S256x1024_S1024x256_S256x256_1_0_0_1_n_n 1024 rfl rfl).symm k) = ix2 k (i 1) := funext fun a => Fin.ext (by
    match a with
    | ⟨0, _⟩ => exact (rhs_kv_0 _ _).trans hk
    | ⟨1, _⟩ => exact rhs_kv_1 _ _)
  rw [el, er]
  rfl

/-- The first body's second store: what the accumulator held, plus `kᵀ·v` of the block's two other projections — at
    `(d, e)` the sum over the block's rows `r` of `k[r,d] · v[r,e]`. -/
theorem pay4_apply (x : Vec Ideal S1024x512 .f32) (wk wv : Vec Ideal S256x512 .f32) (acc : Vec Ideal S256x256 .f32)
    (d e : Fin 256) :
    k0_pay4 (F := Ideal) x wk wv acc (ix2 d e)
      = acc (ix2 d e) + ∑ r : Fin 1024, (∑ k : Fin 512, x (ix2 r k) * wk (ix2 d k)) * (∑ k : Fin 512, x (ix2 r k) * wv (ix2 e k)) := by
  unfold k0_pay4 k0_pay2
  refine congrArg₂ (· + ·) (congrFun (shapeCast_self acc shapeCasts_S256x256_S256x256) (ix2 d e)) ?_
  refine (mm_kv_apply _ _ (ix2 d e)).trans (Finset.sum_congr rfl fun r _ => ?_)
  refine congrArg₂ (· * ·) ?_ (projBlock_apply x wv r e)
  refine (transpose_apply [1, 0] _ transposes_S1024x256_p1_0_S256x1024 (ix2 d r) (ix2 r d)
      (fun b => match b with
        | ⟨0, _⟩ => rfl
        | ⟨1, _⟩ => rfl)).trans ?_
  exact projBlock_apply x wk r d

/-! ## A block of `Q` (2048 × 256) times `KᵀV` (256 × 256) -/

theorem lhs_qs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_qs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_qs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_qs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into a zero accumulator at `i`: `∑_d l[i₀,d] · r[d,i₁]`, `d` over the 256 contracted coordinates. -/
theorem mm_qs_apply (l : FVec Ideal S2048x256 .bf16) (r : FVec Ideal S256x256 .bf16) (i : S2048x256.Idx) :
    matmul dot_S2048x256_S256x256_S2048x256_1_0_0_1_n_n none l r (constant S2048x256 .f32 0x00000000#32) i
      = ∑ k : Fin 256, l (ix2 (i 0) k) * r (ix2 k (i 1)) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx i ((ValueIdx.contrEquiv1 dot_S2048x256_S256x256_S2048x256_1_0_0_1_n_n 256 rfl rfl).symm k) = ix2 (i 0) k := funext fun a => Fin.ext (by
    match a with
    | ⟨0, _⟩ => exact lhs_qs_0 _ _
    | ⟨1, _⟩ => exact (lhs_qs_1 _ _).trans hk)
  have er : dot_S2048x256_S256x256_S2048x256_1_0_0_1_n_n.rhsIdx i ((ValueIdx.contrEquiv1 dot_S2048x256_S256x256_S2048x256_1_0_0_1_n_n 256 rfl rfl).symm k) = ix2 k (i 1) := funext fun a => Fin.ext (by
    match a with
    | ⟨0, _⟩ => exact (rhs_qs_0 _ _).trans hk
    | ⟨1, _⟩ => exact rhs_qs_1 _ _)
  rw [el, er]
  rfl

/-- The second body's store: a block `q` of the first projection times the 256 × 256 matrix `s`. -/
theorem pay1B_apply (q : Vec Ideal S2048x256 .f32) (s : Vec Ideal S256x256 .f32) (r : Fin 2048) (e : Fin 256) :
    k1_pay1 (F := Ideal) q s (ix2 r e) = ∑ d : Fin 256, q (ix2 r d) * s (ix2 d e) := by
  unfold k1_pay1
  refine (mm_qs_apply _ _ (ix2 r e)).trans (Finset.sum_congr rfl fun d _ => ?_)
  exact congrArg₂ (· * ·) (congrFun (shapeCast_self q shapeCasts_S2048x256_S2048x256) (ix2 r d))
    (congrFun (shapeCast_self s shapeCasts_S256x256_S256x256) (ix2 d e))

end Cert.Proof.KernelProducts

end
-- ==== Proof.ProjectRegion.lean ====
/-
  The first pallas_call's two output arrays: the projection `X·W_Qᵀ` and the accumulated `KᵀV`.

  The call walks the 8192 rows of `X` in eight blocks of 1024 and keeps the three weight matrices whole. At every point
  its body stores the block's first projection through the first output's block of the same rows, so that output ends
  holding `proj X W_Q` (`final_q`: what a point writes back is its block of that one function, and the eight blocks
  cover the array). The second output is ONE 256 × 256 block whose index never moves: the body zeroes it at the first
  point, adds `kᵀ·v` of the block's two other projections at every point, and the block is written back after the last
  point only. What it holds after point `n` is the accumulation of the spec, `kvUpTo … n` (`acc_eq`, by induction on the
  point: the first point leaves zero plus its share, every later point what was there plus its share), so the second
  output ends holding `kvUpTo … 7` (`final_s`).
-/
import proofs.«133003_j17051020165649_1_alg».proof.Proof.Gen.KernelIdeal.Frame
import proofs.«133003_j17051020165649_1_alg».proof.Proof.LinearAttention
import proofs.«133003_j17051020165649_1_alg».proof.Proof.KernelProducts
import Idealize.ShloMosaic.Lib.Pipeline.Value
import Idealize.ShloMosaic.Lib.Tactic

noncomputable section

open scoped BigOperators

namespace Cert.Proof.ProjectRegion

open Cert.KernelIdeal Cert.KernelIdeal.Gen Idealize.ShloMosaic Idealize.ShloMosaic.TcCoe Idealize.SL.Sem
open Idealize.ShloMosaic.ValueIdx
open Idealize.ShloMosaic.Pipeline (Dat)
open Cert.Proof.LinearAttention Cert.Proof.KernelProducts

theorem hz : (![0, 0] : Fin 2 → Nat) = fun _ => 0 := funext fun a => by fin_cases a <;> rfl

/-! ## What each case of the body leaves in the two outputs' staging buffers -/

section Cases
variable {F : FTy → Type} [FloatOps F]

/-- At the first point the first output's buffer is left at the block's first projection (one covering store). -/
theorem outA_q (c : Dev nD) (i : grid0.Coords) (a1 : Memref sig .tc .vmem S1024x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S1024x256 .f32) (h5 : a5.IsWhole) (a6 : Memref sig .tc .vmem S256x256 .f32) (h6 : a6.IsWhole) (hc : cond0_0 i) (x0 : Vec F S1024x512 .f32) (x1 x2 x3 : Vec F S256x512 .f32) :
    out0_A_4 c i a1 h1 a2 h2 a3 h3 a4 h4 a5 h5 a6 h6 hc x0 x1 x2 x3 = k0_pay3 x0 x1 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, View.ld_unit_zero (S := S1024x512) hz,
    View.ld_unit_zero (S := S256x512) hz]

/-- At a later point likewise. -/
theorem outB_q (c : Dev nD) (i : grid0.Coords) (a1 : Memref sig .tc .vmem S1024x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S1024x256 .f32) (h5 : a5.IsWhole) (a6 : Memref sig .tc .vmem S256x256 .f32) (h6 : a6.IsWhole) (hc : ¬cond0_0 i) (x0 : Vec F S1024x512 .f32) (x1 x2 x3 : Vec F S256x512 .f32)
    (xo : Vec F S256x256 .f32) :
    out0_B_4 c i a1 h1 a2 h2 a3 h3 a4 h4 a5 h5 a6 h6 hc x0 x1 x2 x3 xo = k0_pay3 x0 x1 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, View.ld_unit_zero (S := S1024x512) hz,
    View.ld_unit_zero (S := S256x512) hz]

/-- At the first point the accumulator is zeroed, read back, and left at the zero block plus the block's `kᵀ·v`. -/
theorem outA_s (c : Dev nD) (i : grid0.Coords) (a1 : Memref sig .tc .vmem S1024x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S1024x256 .f32) (h5 : a5.IsWhole) (a6 : Memref sig .tc .vmem S256x256 .f32) (h6 : a6.IsWhole) (hc : cond0_0 i) (x0 : Vec F S1024x512 .f32) (x1 x2 x3 : Vec F S256x512 .f32) :
    out0_A_5 c i a1 h1 a2 h2 a3 h3 a4 h4 a5 h5 a6 h6 hc x0 x1 x2 x3 = k0_pay4 x0 x2 x3 k0_pay1 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S256x256) hz]
  simp only [View.readAt_eq_ld, h1.read_unread, h3.read_unread, h4.read_unread, View.ld_unit_zero (S := S1024x512) hz,
    View.ld_unit_zero (S := S256x512) hz, View.readCov_unit_zero (S := S256x256) _ hz]

/-- At a later point it is left at what it held, `xo`, plus the block's `kᵀ·v`. -/
theorem outB_s (c : Dev nD) (i : grid0.Coords) (a1 : Memref sig .tc .vmem S1024x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S1024x256 .f32) (h5 : a5.IsWhole) (a6 : Memref sig .tc .vmem S256x256 .f32) (h6 : a6.IsWhole) (hc : ¬cond0_0 i) (x0 : Vec F S1024x512 .f32) (x1 x2 x3 : Vec F S256x512 .f32)
    (xo : Vec F S256x256 .f32) :
    out0_B_5 c i a1 h1 a2 h2 a3 h3 a4 h4 a5 h5 a6 h6 hc x0 x1 x2 x3 xo = k0_pay4 x0 x2 x3 xo := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h3.read_unread, h4.read_unread, h6.read_unread,
    View.ld_unit_zero (S := S1024x512) hz, View.ld_unit_zero (S := S256x512) hz, View.ld_unit_zero (S := S256x256) hz]

end Cases

/-! ## The blocks the body reads -/

variable (V : (c : Dev nD) → (b : Ref sig .tc) → Buf (Elt Ideal) ((c : Thread nD τ).loc b))

/-- The printed index maps over the grid: the `X` window and the first output sit on row block `t` at point `t`; the
    weights' windows and the second output on their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

theorem point_lt (t : Fin cfg0.N) : t.val < 8 := lt_of_lt_of_eq t.isLt (show cfg0.N = 8 from N_0)

/-- The point as a tile of the spec. -/
abbrev tile (t : Fin cfg0.N) : Fin 8 := ⟨t.val, point_lt t⟩

/-- The `X` block at point `t`: the rows of tile `t`. -/
theorem xblk_apply (c : Dev nD) (t : Fin cfg0.N) (r : Fin 1024) (k : Fin 512) :
    (iblk0 V c 0 t : Vec Ideal S1024x512 .f32) (ix2 r k) = V c main_arg0 (ix2 (tileRow (tile t) r) k) := by
  obtain ⟨e0, e1, -⟩ := index_facts t
  show V c main_arg0 (((cfg0.win 0).blk t).view.emb (ix2 r k)) = _
  refine congrArg (V c main_arg0) (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 512 + 1 * k.val = k.val; rw [e1]; omega

/-- A weight's block at any point: the whole matrix. -/
theorem wqblk_apply (c : Dev nD) (t : Fin cfg0.N) (d : Fin 256) (k : Fin 512) :
    (iblk0 V c 1 t : Vec Ideal S256x512 .f32) (ix2 d k) = V c main_arg1 (ix2 d k) := by
  obtain ⟨-, -, e0, e1, -⟩ := index_facts t
  show V c main_arg1 (((cfg0.win 1).blk t).view.emb (ix2 d k)) = _
  refine congrArg (V c main_arg1) (funext fun a => Fin.ext ?_)
  match a with
  | ⟨0, _⟩ => show win0_1.index t (0 : Fin 2) * 256 + 1 * d.val = d.val; rw [e0]; omega
  | ⟨1, _⟩ => show win0_1.index t (1 : Fin 2) * 512 + 1 * k.val = k.val; rw [e1]; omega
theorem wkblk_apply (c : Dev nD) (t : Fin cfg0.N) (d : Fin 256) (k : Fin 512) :
    (iblk0 V c 2 t : Vec Ideal S256x512 .f32) (ix2 d k) = V c main_arg2 (ix2 d k) := by
  obtain ⟨-, -, -, -, e0, e1, -⟩ := index_facts t
  show V c main_arg2 (((cfg0.win 2).blk t).view.emb (ix2 d k)) = _
  refine congrArg (V c main_arg2) (funext fun a => Fin.ext ?_)
  match a with
  | ⟨0, _⟩ => show win0_2.index t (0 : Fin 2) * 256 + 1 * d.val = d.val; rw [e0]; omega
  | ⟨1, _⟩ => show win0_2.index t (1 : Fin 2) * 512 + 1 * k.val = k.val; rw [e1]; omega
theorem wvblk_apply (c : Dev nD) (t : Fin cfg0.N) (d : Fin 256) (k : Fin 512) :
    (iblk0 V c 3 t : Vec Ideal S256x512 .f32) (ix2 d k) = V c main_arg3 (ix2 d k) := by
  obtain ⟨-, -, -, -, -, -, e0, e1, -⟩ := index_facts t
  show V c main_arg3 (((cfg0.win 3).blk t).view.emb (ix2 d k)) = _
  refine congrArg (V c main_arg3) (funext fun a => Fin.ext ?_)
  match a with
  | ⟨0, _⟩ => show win0_3.index t (0 : Fin 2) * 256 + 1 * d.val = d.val; rw [e0]; omega
  | ⟨1, _⟩ => show win0_3.index t (1 : Fin 2) * 512 + 1 * k.val = k.val; rw [e1]; omega

/-! ## The first output: `X·W_Qᵀ` -/

/-- After ANY point the first output's buffer holds the point's block of the first projection. -/
theorem outsAt_q (c : Dev nD) (t : Fin cfg0.N) :
    (outsAt0 V c t.val t.isLt).1 = k0_pay3 (F := Ideal) (iblk0 V c 0 t) (iblk0 V c 1 t) := by
  by_cases h0 : t.val % 8 = 0
  · rw [outsAt0_A V c t h0]; dsimp only
    exact outA_q (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)
  · rw [outsAt0_B V c t h0]; dsimp only
    exact outB_q (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t)
      (outsAt0 V c (t.val - 1) (Nat.lt_of_le_of_lt (Nat.sub_le _ _) t.isLt)).2

/-- WHAT POINT `t` WRITES BACK to the first output is block `t` of `proj X W_Q`. -/
theorem flushed_q (c : Dev nD) (t : Fin cfg0.N) :
    (dat0 V c).flushed 4 t = ((cfg0.win 4).blk t).view.read (Elt Ideal) (proj (V c main_arg0) (V c main_arg1)) := by
  show (cfg0.win 4).cut (grid0.coords t) ((dat0 V c).after 4 t) = _
  rw [after0_4, outsAt_q V c t]
  funext j
  obtain ⟨r, d, rfl⟩ : ∃ (r : Fin 1024) (d : Fin 256), j = ix2 r d := ⟨j 0, j 1, eq_ix2 j⟩
  have hN := point_lt t
  obtain ⟨-, -, -, -, -, -, -, -, e8, e9, -⟩ := index_facts t
  show k0_pay3 (F := Ideal) (iblk0 V c 0 t) (iblk0 V c 1 t) (ix2 r d)
    = proj (V c main_arg0) (V c main_arg1) (((cfg0.win 4).blk t).view.emb (ix2 r d))
  refine (pay3_apply _ _ r d).trans ?_
  have hemb : ((cfg0.win 4).blk t).view.emb (ix2 r d) = ix2 (tileRow (tile t) r) d := funext fun a => Fin.ext (by
    match a with
    | ⟨0, _⟩ => show win0_4.index t (0 : Fin 2) * 1024 + 1 * r.val = 1024 * t.val + r.val; rw [e8]; omega
    | ⟨1, _⟩ => show win0_4.index t (1 : Fin 2) * 256 + 1 * d.val = d.val; rw [e9]; omega)
  rw [hemb]
  unfold proj
  exact Finset.sum_congr rfl fun k _ => congrArg₂ (· * ·) (xblk_apply V c t r k) (wqblk_apply V c t d k)

/-- An index of the first output's array is in point `t`'s block iff each coordinate is in the block's range. -/
theorem mem_blk_q (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v0_0).slice (win0_4.rect t)).set ↔ _
  rw [View.set_slice_whole, Rect.mem_set_unit]
  exact Iff.rfl

/-- THE FIRST OUTPUT after the call: `proj X W_Q` of the arrays as the call finds them. -/
theorem final_q (c : Dev nD) : (dat0 V c).arrAt 4 cfg0.N = proj (V c main_arg0) (V c main_arg1) :=
  (dat0 V c).arrAt_eq_of_cover 4 (proj (V c main_arg0) (V c main_arg1)) (fun t _ => flushed_q V c t) fun i => by
    have h0 : (i 0).val < 8192 := (i 0).isLt
    have h1 : (i 1).val < 256 := (i 1).isLt
    have hlt : (i 0).val / 1024 < cfg0.N := by rw [show cfg0.N = 8 from N_0]; omega
    refine ⟨⟨(i 0).val / 1024, hlt⟩, flush0_4 _, ?_⟩
    rw [mem_blk_q]
    obtain ⟨-, -, -, -, -, -, -, -, e8, e9, -⟩ := index_facts ⟨(i 0).val / 1024, hlt⟩
    intro a
    match a with
    | ⟨0, _⟩ =>
      show win0_4.index ⟨(i 0).val / 1024, hlt⟩ (0 : Fin 2) * 1024 ≤ (i 0).val
        ∧ (i 0).val < win0_4.index ⟨(i 0).val / 1024, hlt⟩ (0 : Fin 2) * 1024 + 1024
      rw [e8]; dsimp only; omega
    | ⟨1, _⟩ =>
      show win0_4.index ⟨(i 0).val / 1024, hlt⟩ (1 : Fin 2) * 256 ≤ (i 1).val
        ∧ (i 1).val < win0_4.index ⟨(i 0).val / 1024, hlt⟩ (1 : Fin 2) * 256 + 256
      rw [e9]; omega

/-! ## The second output: `KᵀV` accumulated over the points -/

/-- The two other projections of `X`, as the call finds the arrays. -/
abbrev Kp (c : Dev nD) : SP.Idx → EReal := proj (V c main_arg0) (V c main_arg2)
abbrev Vp (c : Dev nD) : SP.Idx → EReal := proj (V c main_arg0) (V c main_arg3)

/-- The blocks the accumulation reads at point `t`, as plain arrays of extended reals. -/
abbrev xblk (c : Dev nD) (t : Fin cfg0.N) : S1024x512.Idx → EReal := iblk0 V c 0 t
abbrev wkblk (c : Dev nD) (t : Fin cfg0.N) : S256x512.Idx → EReal := iblk0 V c 2 t
abbrev wvblk (c : Dev nD) (t : Fin cfg0.N) : S256x512.Idx → EReal := iblk0 V c 3 t

/-- The block's `kᵀ·v` at point `t` is tile `t`'s share of `KᵀV`. -/
theorem share_eq (c : Dev nD) (t : Fin cfg0.N) (d e : Fin 256) :
    ∑ r : Fin 1024, (∑ k : Fin 512, xblk V c t (ix2 r k) * wkblk V c t (ix2 d k))
        * (∑ k : Fin 512, xblk V c t (ix2 r k) * wvblk V c t (ix2 e k))
      = kvTile (Kp V c) (Vp V c) (tile t) (ix2 d e) := by
  show _ = ∑ r : Fin 1024, proj (V c main_arg0) (V c main_arg2) (ix2 (tileRow (tile t) r) d)
    * proj (V c main_arg0) (V c main_arg3) (ix2 (tileRow (tile t) r) e)
  refine Finset.sum_congr rfl fun r _ => congrArg₂ (· * ·) ?_ ?_
  · unfold proj
    exact Finset.sum_congr rfl fun k _ => congrArg₂ (· * ·) (xblk_apply V c t r k) (wkblk_apply V c t d k)
  · unfold proj
    exact Finset.sum_congr rfl fun k _ => congrArg₂ (· * ·) (xblk_apply V c t r k) (wvblk_apply V c t e k)

/-- The body's second store at point `t`, over what the accumulator held: that, plus tile `t`'s share. -/
theorem pay4_share (c : Dev nD) (t : Fin cfg0.N) (acc : S256x256.Idx → EReal) :
    k0_pay4 (F := Ideal) (iblk0 V c 0 t) (iblk0 V c 2 t) (iblk0 V c 3 t) acc
      = fun j => acc j + kvTile (Kp V c) (Vp V c) (tile t) j := by
  funext j
  obtain ⟨d, e, rfl⟩ : ∃ (d e : Fin 256), j = ix2 d e := ⟨j 0, j 1, eq_ix2 j⟩
  exact (pay4_apply _ _ _ _ d e).trans (congrArg (acc (ix2 d e) + ·) (share_eq V c t d e))

/-- After the first point the accumulator holds the body's second store over the zero block. -/
theorem acc_first (c : Dev nD) (t : Fin cfg0.N) (h0 : t.val % 8 = 0) :
    (outsAt0 V c t.val t.isLt).2
      = k0_pay4 (F := Ideal) (iblk0 V c 0 t) (iblk0 V c 2 t) (iblk0 V c 3 t) (k0_pay1 (F := Ideal)) := by
  rw [outsAt0_A V c t h0]; dsimp only
  exact outA_s (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)

/-- After a later point it holds the body's second store over what the point before left. -/
theorem acc_next (c : Dev nD) (t : Fin cfg0.N) (h0 : ¬t.val % 8 = 0) :
    (outsAt0 V c t.val t.isLt).2 = k0_pay4 (F := Ideal) (iblk0 V c 0 t) (iblk0 V c 2 t) (iblk0 V c 3 t)
      (outsAt0 V c (t.val - 1) (Nat.lt_of_le_of_lt (Nat.sub_le _ _) t.isLt)).2 := by
  rw [outsAt0_B V c t h0]; dsimp only
  exact outB_s (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t)
    (outsAt0 V c (t.val - 1) (Nat.lt_of_le_of_lt (Nat.sub_le _ _) t.isLt)).2

/-- The zero block the first point stores is the extended real zero everywhere. -/
theorem zero_block (j : S256x256.Idx) : k0_pay1 (F := Ideal) j = 0 := Ideal.ofBits_zero_f32

/-- THE ACCUMULATION. After point `n` the second output's buffer holds the spec's accumulation up to tile `n`. -/
theorem acc_eq (c : Dev nD) : ∀ (n : ℕ) (hn : n < cfg0.N),
    (outsAt0 V c n hn).2 = kvUpTo (Kp V c) (Vp V c) n (lt_of_lt_of_eq hn (show cfg0.N = 8 from N_0))
  | 0, hn =>
    ((acc_first V c ⟨0, hn⟩ rfl).trans (pay4_share V c ⟨0, hn⟩ (k0_pay1 (F := Ideal)))).trans
      (funext fun j => congrArg (· + kvTile (Kp V c) (Vp V c) ⟨0, _⟩ j) (zero_block j))
  | n + 1, hn =>
    have hB : ¬(⟨n + 1, hn⟩ : Fin cfg0.N).val % 8 = 0 := by
      have hN : cfg0.N = 8 := N_0
      show ¬(n + 1) % 8 = 0
      omega
    ((acc_next V c ⟨n + 1, hn⟩ hB).trans (pay4_share V c ⟨n + 1, hn⟩ _)).trans
      (funext fun j => congrArg (· + kvTile (Kp V c) (Vp V c) ⟨n + 1, _⟩ j)
        (congrFun (acc_eq c n (Nat.lt_of_succ_lt hn)) j))

/-- The accumulation's tile count read through an equation. -/
theorem kvUpTo_congr (K W : SP.Idx → EReal) (n : ℕ) (h : n < 8) (e : n = 7) (h7 : 7 < 8) :
    kvUpTo K W n h = kvUpTo K W 7 h7 := by
  subst e; rfl

/-- WHAT THE LAST POINT WRITES BACK to the second output — the only write-back — is the whole accumulation. -/
theorem flushed_s (c : Dev nD) (t : Fin cfg0.N) (hf : (cfg0.win 5).flush t = true) :
    (dat0 V c).flushed 5 t = ((cfg0.win 5).blk t).view.read (Elt Ideal) (kvUpTo (Kp V c) (Vp V c) 7 (by norm_num)) := by
  have hN := point_lt t
  have h7 : t.val = 7 := by have := (flush0_5 t).mp hf; omega
  obtain ⟨-, -, -, -, -, -, -, -, -, -, e10, e11⟩ := index_facts t
  show (cfg0.win 5).cut (grid0.coords t) ((dat0 V c).after 5 t) = _
  rw [after0_5, acc_eq V c t.val t.isLt, kvUpTo_congr _ _ t.val _ h7 (by norm_num)]
  funext j
  obtain ⟨d, e, rfl⟩ : ∃ (d e : Fin 256), j = ix2 d e := ⟨j 0, j 1, eq_ix2 j⟩
  show kvUpTo (Kp V c) (Vp V c) 7 _ (ix2 d e) = kvUpTo (Kp V c) (Vp V c) 7 _ (((cfg0.win 5).blk t).view.emb (ix2 d e))
  refine congrArg (kvUpTo (Kp V c) (Vp V c) 7 _) (funext fun a => Fin.ext ?_)
  match a with
  | ⟨0, _⟩ => show d.val = win0_5.index t (0 : Fin 2) * 256 + 1 * d.val; rw [e10]; omega
  | ⟨1, _⟩ => show e.val = win0_5.index t (1 : Fin 2) * 256 + 1 * e.val; rw [e11]; omega

/-- An index of the second output's array is in point `t`'s block iff each coordinate is in the block's range. -/
theorem mem_blk_s (t : Fin cfg0.N) (i : S256x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v0_1).slice (win0_5.rect t)).set ↔ _
  rw [View.set_slice_whole, Rect.mem_set_unit]
  exact Iff.rfl

/-- THE SECOND OUTPUT after the call: the accumulation over all eight tiles. -/
theorem final_s (c : Dev nD) : (dat0 V c).arrAt 5 cfg0.N = kvUpTo (Kp V c) (Vp V c) 7 (by norm_num) :=
  (dat0 V c).arrAt_eq_of_cover 5 (kvUpTo (Kp V c) (Vp V c) 7 (by norm_num)) (flushed_s V c) fun i => by
    have h0 : (i 0).val < 256 := (i 0).isLt
    have h1 : (i 1).val < 256 := (i 1).isLt
    have hlt : 7 < cfg0.N := by rw [show cfg0.N = 8 from N_0]; norm_num
    refine ⟨⟨7, hlt⟩, (flush0_5 ⟨7, hlt⟩).mpr rfl, ?_⟩
    rw [mem_blk_s]
    obtain ⟨-, -, -, -, -, -, -, -, -, -, e10, e11⟩ := index_facts ⟨7, hlt⟩
    intro a
    match a with
    | ⟨0, _⟩ =>
      show win0_5.index ⟨7, hlt⟩ (0 : Fin 2) * 256 ≤ (i 0).val ∧ (i 0).val < win0_5.index ⟨7, hlt⟩ (0 : Fin 2) * 256 + 256
      rw [e10]; omega
    | ⟨1, _⟩ =>
      show win0_5.index ⟨7, hlt⟩ (1 : Fin 2) * 256 ≤ (i 1).val ∧ (i 1).val < win0_5.index ⟨7, hlt⟩ (1 : Fin 2) * 256 + 256
      rw [e11]; omega

end Cert.Proof.ProjectRegion

end
-- ==== Proof.ApplyRegion.lean ====
/-
  The second pallas_call's output array: `Q·S` of the two arrays the call finds.

  The call walks the 8192 rows of its first operand `Q` in four blocks of 2048, keeps its second operand `S` (256 × 256)
  whole, and at each point stores the product of the `Q` block with `S` through the output's block of the same rows.
  So what point `t` writes back is block `t` of the one whole-array function `Q·S` (`flushed_z`: the body's product
  read at an index, each operand's block read where the output's rows say), the four blocks cover the output array
  (row `i` lies in block `i / 2048`), and the array ends holding `Q·S` (`final_z`), whatever `Q` and `S` are.
-/
import proofs.«133003_j17051020165649_1_alg».proof.Proof.Gen.KernelIdeal.Frame
import proofs.«133003_j17051020165649_1_alg».proof.Proof.LinearAttention
import proofs.«133003_j17051020165649_1_alg».proof.Proof.KernelProducts
import Idealize.ShloMosaic.Lib.Pipeline.Value

noncomputable section

open scoped BigOperators

namespace Cert.Proof.ApplyRegion

open Cert.KernelIdeal Cert.KernelIdeal.Gen Idealize.ShloMosaic Idealize.ShloMosaic.TcCoe Idealize.SL.Sem
open Idealize.ShloMosaic.ValueIdx
open Idealize.ShloMosaic.Pipeline (Dat)
open Cert.Proof.LinearAttention Cert.Proof.KernelProducts

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the `Q` window and the output window sit on row block `t` at point `t`, the
    `S` window on its one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 4 := lt_of_lt_of_eq t.isLt (show cfg1.N = 4 from N_1)

/-- The `Q` block at point `t`: rows `2048·t + r` of the first operand's array. -/
theorem qblk_apply (c : Dev nD) (t : Fin cfg1.N) (r : Fin 2048) (d : Fin 256) :
    (iblk1 V c 0 t : Vec Ideal S2048x256 .f32) (ix2 r d)
      = V c main_v0_0 (ix2 (⟨2048 * t.val + r.val, by have := point_lt t; have := r.isLt; omega⟩ : Fin 8192) d) := by
  obtain ⟨e0, e1, -⟩ := index_facts t
  show V c main_v0_0 (((cfg1.win 0).blk t).view.emb (ix2 r d)) = _
  refine congrArg (V c main_v0_0) (funext fun a => Fin.ext ?_)
  match a with
  | ⟨0, _⟩ => show win1_0.index t (0 : Fin 2) * 2048 + 1 * r.val = 2048 * t.val + r.val; rw [e0]; omega
  | ⟨1, _⟩ => show win1_0.index t (1 : Fin 2) * 256 + 1 * d.val = d.val; rw [e1]; omega

/-- The `S` block at any point: the second operand's whole array. -/
theorem sblk_apply (c : Dev nD) (t : Fin cfg1.N) (d e : Fin 256) :
    (iblk1 V c 1 t : Vec Ideal S256x256 .f32) (ix2 d e) = V c main_v0_1 (ix2 d e) := by
  obtain ⟨-, -, e2, e3, -⟩ := index_facts t
  show V c main_v0_1 (((cfg1.win 1).blk t).view.emb (ix2 d e)) = _
  refine congrArg (V c main_v0_1) (funext fun a => Fin.ext ?_)
  match a with
  | ⟨0, _⟩ => show win1_1.index t (0 : Fin 2) * 256 + 1 * d.val = d.val; rw [e2]; omega
  | ⟨1, _⟩ => show win1_1.index t (1 : Fin 2) * 256 + 1 * e.val = e.val; rw [e3]; omega

/-- WHAT POINT `t` WRITES BACK is block `t` of `Q·S` of the two arrays as the call finds them. -/
theorem flushed_z (c : Dev nD) (t : Fin cfg1.N) :
    (dat1 V c).flushed 2 t = ((cfg1.win 2).blk t).view.read (Elt Ideal) (qkv (V c main_v0_0) (V c main_v0_1)) := by
  show (cfg1.win 2).cut (grid1.coords t) ((dat1 V c).after 2 t) = _
  rw [after1_2]
  unfold out1_2
  rw [View.canon_unit_zero hz]
  simp only [View.ld_unit_zero (S := S2048x256) hz, View.ld_unit_zero (S := S256x256) hz]
  funext j
  obtain ⟨r, e, rfl⟩ : ∃ (r : Fin 2048) (e : Fin 256), j = ix2 r e := ⟨j 0, j 1, eq_ix2 j⟩
  have hN := point_lt t
  obtain ⟨-, -, -, -, e4, e5⟩ := index_facts t
  show k1_pay1 (F := Ideal) (iblk1 V c 0 t) (iblk1 V c 1 t) (ix2 r e)
    = qkv (V c main_v0_0) (V c main_v0_1) (((cfg1.win 2).blk t).view.emb (ix2 r e))
  refine (pay1B_apply _ _ r e).trans ?_
  have hemb : ((cfg1.win 2).blk t).view.emb (ix2 r e)
      = ix2 (⟨2048 * t.val + r.val, by have := r.isLt; omega⟩ : Fin 8192) e := funext fun a => Fin.ext (by
    match a with
    | ⟨0, _⟩ => show win1_2.index t (0 : Fin 2) * 2048 + 1 * r.val = 2048 * t.val + r.val; rw [e4]; omega
    | ⟨1, _⟩ => show win1_2.index t (1 : Fin 2) * 256 + 1 * e.val = e.val; rw [e5]; omega)
  rw [hemb]
  unfold qkv
  refine Finset.sum_congr rfl fun d _ => ?_
  exact congrArg₂ (· * ·) (qblk_apply V c t r d) (sblk_apply V c t d e)

/-- An index of the output array is in point `t`'s block iff each coordinate is in the block's range on its axis. -/
theorem mem_blk_z (t : Fin cfg1.N) (i : S8192x256.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_v1).slice (win1_2.rect t)).set ↔ _
  rw [View.set_slice_whole, Rect.mem_set_unit]
  exact Iff.rfl

/-- THE OUTPUT ARRAY after the call: `Q·S` of the two arrays as the call finds them. -/
theorem final_z (c : Dev nD) : (dat1 V c).arrAt 2 cfg1.N = qkv (V c main_v0_0) (V c main_v0_1) :=
  (dat1 V c).arrAt_eq_of_cover 2 (qkv (V c main_v0_0) (V c main_v0_1)) (fun t _ => flushed_z V c t) fun i => by
    have h0 : (i 0).val < 8192 := (i 0).isLt
    have h1 : (i 1).val < 256 := (i 1).isLt
    have hlt : (i 0).val / 2048 < cfg1.N := by rw [show cfg1.N = 4 from N_1]; omega
    refine ⟨⟨(i 0).val / 2048, hlt⟩, flush1_2 _, ?_⟩
    rw [mem_blk_z]
    obtain ⟨-, -, -, -, e4, e5⟩ := index_facts ⟨(i 0).val / 2048, hlt⟩
    intro a
    match a with
    | ⟨0, _⟩ =>
      show win1_2.index ⟨(i 0).val / 2048, hlt⟩ (0 : Fin 2) * 2048 ≤ (i 0).val
        ∧ (i 0).val < win1_2.index ⟨(i 0).val / 2048, hlt⟩ (0 : Fin 2) * 2048 + 2048
      rw [e4]; dsimp only; omega
    | ⟨1, _⟩ =>
      show win1_2.index ⟨(i 0).val / 2048, hlt⟩ (1 : Fin 2) * 256 ≤ (i 1).val
        ∧ (i 1).val < win1_2.index ⟨(i 0).val / 2048, hlt⟩ (1 : Fin 2) * 256 + 256
      rw [e5]; omega

end Cert.Proof.ApplyRegion

end
-- ==== Proof.KernelResult.lean ====
/-
  The idealized kernel's result, as a formula of its arguments.

  @main is two pallas_calls and then the head projection on the host. The first call leaves `Q = proj X W_Q` and the
  accumulated `KᵀV` in its two outputs; the second reads them and leaves `Q·(KᵀV)`; the host operations then form
  `Z·head_wᵀ + head_b` and reshape the one column into a vector (`head`). Read through the contents at each boundary
  of @main — each call's output arrays at what its write-backs leave, every other buffer as it was — the result array is
  `head (qkv Q (KᵀV))` of the launch contents of the six arguments.
-/
import proofs.«133003_j17051020165649_1_alg».proof.Proof.RunResult
import proofs.«133003_j17051020165649_1_alg».proof.Proof.ProjectRegion
import proofs.«133003_j17051020165649_1_alg».proof.Proof.ApplyRegion
import Idealize.ShloMosaic.Lib.StableHlo.Run

noncomputable section

namespace Cert.Proof.KernelResult

open Cert.KernelIdeal Cert.KernelIdeal.Gen Idealize.ShloMosaic Idealize.ShloMosaic.TcCoe Idealize.SL.Sem
open Idealize.ShloMosaic.StableHlo
open Cert.Proof.LinearAttention

/-- The head projection both programs end with: `Z·head_wᵀ + head_b`, its one column reshaped to a vector. -/
def head (Z : FVec Ideal S8192x256 .f32) (hw : FVec Ideal S1x256 .f32) (hb : FVec Ideal S1 .f32) : FVec Ideal S8192 .f32 :=
  shapeCast S8192
    (addf (F := Ideal)
      (Host.dotGeneral (F := Ideal) (φ₁ := .f32) (φ₂ := .f32) dot_S8192x256_S256x1_S8192x1_1_0_0_1_n_n none Z
        (transpose S256x1 [1, 0] hw transposes_S1x256_S256x1_1_0))
      (broadcastInDim S8192x1 ![0, 1] bcast_S1x1_S8192x1_0_1 (broadcastInDim S1x1 ![1] bcast_S1_S1x1_1 hb)))
    shapeCasts_S8192x1_S8192

variable (m : (ℓ : Loc nD τ sig) → Buf (Elt Ideal) ℓ) (ρ : Dev nD → PrngReg)

/-- The closing host operations read back: the result array is `head` of the second call's output and the two head
    arguments, as they stand after the second call. -/
theorem tail_eq (c : Dev nD) :
    W3 m ρ c (Proc.devRef .tc main_v7)
      = head (W2 m ρ c (Proc.devRef .tc main_v1)) (W2 m ρ c (Proc.devRef .tc main_arg4)) (W2 m ρ c (Proc.devRef .tc main_arg5)) := by
  show StableHlo.after hostOps2 (W2 m ρ c) (Proc.devRef .tc main_v7) = _
  unfold head
  after_results
  rfl

/-- The head weights and bias are as launched when the host operations read them: neither call writes them. -/
theorem hw_eq (c : Dev nD) : W2 m ρ c (Proc.devRef .tc main_arg4) = m ((c.tc : Thread nD τ).loc main_arg4) :=
  (W2_of_ne m ρ c main_arg4 (by decide)).trans (W1_of_ne m ρ c main_arg4 (by decide))
theorem hb_eq (c : Dev nD) : W2 m ρ c (Proc.devRef .tc main_arg5) = m ((c.tc : Thread nD τ).loc main_arg5) :=
  (W2_of_ne m ρ c main_arg5 (by decide)).trans (W1_of_ne m ρ c main_arg5 (by decide))

/-- The first call's outputs, as the second call finds them. -/
theorem q_eq (c : Dev nD) :
    V1 m ρ c main_v0_0 = proj (m ((c.tc : Thread nD τ).loc main_arg0)) (m ((c.tc : Thread nD τ).loc main_arg1)) :=
  (W1_arr m ρ c 4).trans (ProjectRegion.final_q (V0 m ρ) c)
theorem s_eq (c : Dev nD) :
    V1 m ρ c main_v0_1 = kvUpTo (proj (m ((c.tc : Thread nD τ).loc main_arg0)) (m ((c.tc : Thread nD τ).loc main_arg2)))
      (proj (m ((c.tc : Thread nD τ).loc main_arg0)) (m ((c.tc : Thread nD τ).loc main_arg3))) 7 (by norm_num) :=
  (W1_arr m ρ c 5).trans (ProjectRegion.final_s (V0 m ρ) c)

/-- The second call's output, as the host operations find it: `Q·(KᵀV)`. -/
theorem z_eq (c : Dev nD) :
    W2 m ρ c (Proc.devRef .tc main_v1)
      = qkv (proj (m ((c.tc : Thread nD τ).loc main_arg0)) (m ((c.tc : Thread nD τ).loc main_arg1)))
          (kvUpTo (proj (m ((c.tc : Thread nD τ).loc main_arg0)) (m ((c.tc : Thread nD τ).loc main_arg2)))
            (proj (m ((c.tc : Thread nD τ).loc main_arg0)) (m ((c.tc : Thread nD τ).loc main_arg3))) 7 (by norm_num)) := by
  refine ((W2_arr m ρ c 2).trans (ApplyRegion.final_z (V1 m ρ) c)).trans ?_
  rw [q_eq, s_eq]

/-- THE KERNEL'S RUN with its result named: @main terminates, nothing faulting, the result array at
    `head (Q·(KᵀV))` of the arguments' launch contents, the arguments unchanged. -/
theorem run : θ_run defs (onTc (τ := τ) (main (F := Ideal))) ⟨m, fun _ => 0, ρ⟩ (fun r => ∀ c : Dev nD,
      r.2.mem ((c.tc : Thread nD τ).loc main_v7)
        = head (qkv (proj (m ((c.tc : Thread nD τ).loc main_arg0)) (m ((c.tc : Thread nD τ).loc main_arg1)))
            (kvUpTo (proj (m ((c.tc : Thread nD τ).loc main_arg0)) (m ((c.tc : Thread nD τ).loc main_arg2)))
              (proj (m ((c.tc : Thread nD τ).loc main_arg0)) (m ((c.tc : Thread nD τ).loc main_arg3))) 7 (by norm_num)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (by rw [tail_eq, z_eq, hw_eq, hb_eq]), (h c).2⟩)
    (Cert.KernelIdeal.GenRun.run_result m ρ)

end Cert.Proof.KernelResult

end
-- ==== Proof.lean ====
/-
  The certificate of a linear-attention kernel against its reference: `Cert.Claim`.

  Both programs project the tokens `X` (8192 × 512) three ways, `Q = X·W_Qᵀ`, `K = X·W_Kᵀ`, `V = X·W_Vᵀ`, form the
  unnormalised attention output `Z` (8192 × 256), and finish with the same head projection `Z·head_wᵀ + head_b`. The
  reference takes the scores first, `Z = (Q·Kᵀ)·V` (Proof/RefAttention.lean, over the generated reading of its run). The
  kernel takes `KᵀV` first: its first pallas_call stores `Q` and accumulates the 256 × 256 matrix `KᵀV` over eight
  tiles of 1024 rows (Proof/ProjectRegion.lean), its second forms `Q·(KᵀV)` (Proof/ApplyRegion.lean), and the result
  array is the head projection of that (Proof/KernelResult.lean, over the launch of Proof/RunResult.lean). At the ideal
  values every change of float format is the identity and every matrix product an exact sum, so the two results differ
  only by the association of a triple matrix product, which is a law of the reals and not of the extended reals: the
  precondition (every input finite) makes every entry real (Proof/FiniteEntries.lean), and there
  `Q·(KᵀV) = (Q·Kᵀ)·V` (Proof/LinearAttention.lean). The three frames are the generated ones (the reference's is its
  generated run with the result dropped); the idealisation rewrote nothing, so `preserves` is trivial.
-/
import proofs.«133003_j17051020165649_1_alg».proof.Defs
import proofs.«133003_j17051020165649_1_alg».proof.Proof.Gen.Kernel
import proofs.«133003_j17051020165649_1_alg».proof.Proof.Gen.Kernel.Skeleton
import proofs.«133003_j17051020165649_1_alg».proof.Proof.Gen.Kernel.Launch
import proofs.«133003_j17051020165649_1_alg».proof.Proof.Gen.Kernel.Points
import proofs.«133003_j17051020165649_1_alg».proof.Proof.Gen.Kernel.Frame
import proofs.«133003_j17051020165649_1_alg».proof.Proof.Gen.KernelIdeal
import proofs.«133003_j17051020165649_1_alg».proof.Proof.Gen.KernelIdeal.Skeleton
import proofs.«133003_j17051020165649_1_alg».proof.Proof.Gen.KernelIdeal.Launch
import proofs.«133003_j17051020165649_1_alg».proof.Proof.Gen.KernelIdeal.Points
import proofs.«133003_j17051020165649_1_alg».proof.Proof.Gen.KernelIdeal.Frame
import proofs.«133003_j17051020165649_1_alg».proof.Proof.Gen.ReferenceIdeal
import proofs.«133003_j17051020165649_1_alg».proof.Proof.Gen.Pre_finite_inputs
import proofs.«133003_j17051020165649_1_alg».proof.Proof.Gen.ReferenceIdeal.Run
import proofs.«133003_j17051020165649_1_alg».proof.Proof.Gen.ReferenceIdeal.Read
import proofs.«133003_j17051020165649_1_alg».proof.Proof.LinearAttention
import proofs.«133003_j17051020165649_1_alg».proof.Proof.FiniteEntries
import proofs.«133003_j17051020165649_1_alg».proof.Proof.RefAttention
import proofs.«133003_j17051020165649_1_alg».proof.Proof.KernelResult
import Idealize.ShloMosaic.Adequacy
import Idealize.ShloMosaic.Init

noncomputable section

namespace Cert.Proof

open Idealize.ShloMosaic Idealize.SL.Sem
open Cert.Proof.LinearAttention

/-- With real entries throughout, the kernel's arrangement of the attention output is the reference's. -/
theorem attention_assoc (X : SX.Idx → EReal) (Wq Wk Wv : SW.Idx → EReal)
    (hX : ∃ x : SX.Idx → ℝ, X = fun i => ((x i : ℝ) : EReal)) (hq : ∃ w : SW.Idx → ℝ, Wq = fun i => ((w i : ℝ) : EReal))
    (hk : ∃ w : SW.Idx → ℝ, Wk = fun i => ((w i : ℝ) : EReal)) (hv : ∃ w : SW.Idx → ℝ, Wv = fun i => ((w i : ℝ) : EReal)) :
    qkv (proj X Wq) (kvUpTo (proj X Wk) (proj X Wv) 7 (by norm_num)) = attn (proj X Wq) (proj X Wk) (proj X Wv) := by
  obtain ⟨x, rfl⟩ := hX
  obtain ⟨wq, rfl⟩ := hq
  obtain ⟨wk, rfl⟩ := hk
  obtain ⟨wv, rfl⟩ := hv
  rw [proj_coe, proj_coe, proj_coe]
  exact qkv_eq_attn _ _ _ _

/-- The reference's result is the head projection of its attention stage: the last six operations of its @main are the
    kernel's closing host operations. -/
theorem ref_head (X : (⟨Cert.ReferenceIdeal.S8192x512, .f32⟩ : BufTy).Contents (Elt Ideal))
    (Wq Wk Wv : (⟨Cert.ReferenceIdeal.S256x512, .f32⟩ : BufTy).Contents (Elt Ideal))
    (hw : (⟨Cert.ReferenceIdeal.S1x256, .f32⟩ : BufTy).Contents (Elt Ideal))
    (hb : (⟨Cert.ReferenceIdeal.S1, .f32⟩ : BufTy).Contents (Elt Ideal)) :
    Cert.ReferenceIdeal.Read.val_main_v14 (F := Ideal) X Wq Wk Wv hw hb
      = KernelResult.head (Cert.ReferenceIdeal.Read.val_main_v8 (F := Ideal) X Wq Wk Wv) hw hb := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values, from finite arguments that agree, both programs end with the head projection of
    `(Q·Kᵀ)·V`: the reference by its reading, the kernel by associativity over the reals. -/
theorem algebraic : Cert.algebraic_KernelIdeal_ReferenceIdeal := by
  intro m ρ m' ρ' hpre hagree
  refine ⟨fun c => KernelResult.head
    (attn (proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (proj (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (proj (m ((c.tc : Thread Cert.KernelIdeal.nD Cert.KernelIdeal.τ).loc Cert.KernelIdeal.main_arg0)) (m ((c.tc : Thread Cert.KernelIdeal.nD Cert.KernelIdeal.τ).loc Cert.KernelIdeal.main_arg3))))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (KernelResult.run m ρ)
    obtain ⟨hX, hq, hk, hv⟩ := FiniteEntries.real_entries _ _ _ _ _ _ (hpre c)
    exact congrArg (fun Z => KernelResult.head Z _ _) (attention_assoc _ _ _ _ hX hq hk hv)
  · refine (θ_run Cert.ReferenceIdeal.defs _ _).mono (fun r h c => ⟨(h c).1.trans ?_, (h c).2⟩)
      (Cert.ReferenceIdeal.Value.run (F := Ideal) m' ρ')
    beta_reduce
    rw [Cert.ReferenceIdeal.Read.val_main_v14_eq, ref_head, RefAttention.ref_attn, (hagree c).1, (hagree c).2.1,
      (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
